-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384 : Shape := ⟨1, ![16384]⟩
abbrev S4096x1024 : Shape := ⟨2, ![4096, 1024]⟩
abbrev S4096 : Shape := ⟨1, ![4096]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg1 : IVec S16384 32) (main_v13 : IVec S_ 1) (main_v15 : IVec S16384 1) (main_c_5 : IVec S_ 32) : IVec S_ 1 :=
  let main_v16 : IVec S16384 32 := broadcastInDim S16384 ![] bcast_S_S16384 main_c_5
  let main_v17 : IVec S16384 1 := cmpi .eq main_arg1 main_v16
  let main_v18 : IVec S16384 1 := ori main_v15 main_v17
  let main_c_6 : IVec S_ 1 := constantI S_ 1 1#1
  let main_v19 : IVec S_ 1 := (fun x v => Host.reduce IntOp.andi x v reducesTo_S16384_S_d0 h_S_) main_v18 main_c_6
  let main_v20 : IVec S_ 1 := andi main_v13 main_v19
  main_v20

def fn {F : FTy → Type} [FloatOps F] (main_arg0 : FVec F S16384x1024 .f32) (main_arg1 : IVec S16384 32) (main_arg2 : FVec F S4096x1024 .f32) (main_arg3 : FVec F S4096 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4096x1024 .f32 := Host.absf main_arg2
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 0#32
  let main_v14 : IVec S16384 32 := broadcastInDim S16384 ![] bcast_S_S16384 main_c_4
  let main_v15 : IVec S16384 1 := cmpi .eq main_arg1 main_v14
  let main_c_5 : IVec S_ 32 := constantI S_ 32 1#32
  fn_part1 (F := F) main_arg1 main_v13 main_v15 main_c_5
-- ==== Kernel.lean ====
abbrev S16384x1024 : Shape := ⟨2, ![16384, 1024]⟩
abbrev S16384 : Shape := ⟨1, ![16384]⟩
abbrev S4096x1024 : Shape := ⟨2, ![4096, 1024]⟩
abbrev S4096 : Shape := ⟨1, ![4096]⟩
abbrev S1024x4096 : Shape := ⟨2, ![1024, 4096]⟩
abbrev S1x4096 : Shape := ⟨2, ![1, 4096]⟩
abbrev S16384x1 : Shape := ⟨2, ![16384, 1]⟩
abbrev S16384x4096 : Shape := ⟨2, ![16384, 4096]⟩
abbrev S512x1024 : Shape := ⟨2, ![512, 1024]⟩
abbrev S512x1 : Shape := ⟨2, ![512, 1]⟩
abbrev S512x4096 : Shape := ⟨2, ![512, 4096]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S4096x1024, .f32⟩
  | .hbm, ⟨3, _⟩ => ⟨S4096, .f32⟩
  | .hbm, ⟨4, _⟩ => ⟨S1024x4096, .f32⟩
  | .hbm, ⟨5, _⟩ => ⟨S1024x4096, .bf16⟩
  | .hbm, ⟨6, _⟩ => ⟨S1x4096, .f32⟩
  | .hbm, ⟨7, _⟩ => ⟨S16384, .f32⟩
  | .hbm, ⟨8, _⟩ => ⟨S16384x1, .f32⟩
  | .hbm, ⟨9, _⟩ => ⟨S16384x4096, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S1x4096, .f32⟩
  | .local _ .vmem, ⟨4, _⟩ => ⟨S512x1, .f32⟩
  | .local _ .vmem, ⟨5, _⟩ => ⟨S512x1, .f32⟩
  | .local _ .vmem, ⟨6, _⟩ => ⟨S512x4096, .f32⟩
  | .local _ .vmem, ⟨7, _⟩ => ⟨S512x4096, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S4096x1024_S1024x4096_1_0 : S4096x1024.Transposes [1, 0] S1024x4096
  bitsLt_bf16_f32 : FTy.bits .bf16 < FTy.bits .f32
  shapeCasts_S4096_S1x4096 : S4096.ShapeCasts S1x4096
  shapeCasts_S16384_S16384x1 : S16384.ShapeCasts S16384x1
  inb_S512x1024_S512x1024_0_0 : ∀ a, (![0, 0] : Fin 2 → Nat) a + S512x1024.size a ≤ S512x1024.size a
  h_S512x1024 : 0 < S512x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x4096 : S512x1.Broadcasts S512x4096
  inb_S512x4096_S512x4096_0_0 : ∀ a, (![0, 0] : Fin 2 → Nat) a + S512x4096.size a ≤ S512x4096.size a
  h_S512x4096 : 0 < S512x4096.numel
  dot_S512x1024_S1024x4096_S512x4096_1_0_0_1_n_n_wf : DotDims.WF S512x1024 S1024x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S16384x1.size a
  hwx0_3 : ∀ i : grid0.Coords, EltTy.bits .f32 = 32 ∨ (Rect.block (s := S16384x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S16384x4096.size a
  hwx0_4 : ∀ i : grid0.Coords, EltTy.bits .f32 = 32 ∨ (Rect.block (s := S16384x4096) S512x4096.size (cc0_transform_4 i) (hinb0_4 i)).WholeWords (EltTy.packing .f32)

variable [Facts₀]

def dot_S512x1024_S1024x4096_S512x4096_1_0_0_1_n_n : DotDims S512x1024 S1024x4096 S512x4096 where
  lhsContracting := [1]
  rhsContracting := [0]
  lhsNonContracting := [0]
  rhsNonContracting := [1]
  lhsBatch := []
  rhsBatch := []
  wf := dot_S512x1024_S1024x4096_S512x4096_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S16384 : Shape := ⟨1, ![16384]⟩
abbrev S4096x1024 : Shape := ⟨2, ![4096, 1024]⟩
abbrev S4096 : Shape := ⟨1, ![4096]⟩
abbrev S16384x4096 : Shape := ⟨2, ![16384, 4096]⟩
abbrev S1x4096 : Shape := ⟨2, ![1, 4096]⟩
abbrev S_ : Shape := ⟨0, ![]⟩
abbrev S16384x1 : Shape := ⟨2, ![16384, 1]⟩

abbrev nBuf : Space → Nat
  | .hbm => 16
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S4096x1024, .f32⟩
  | .hbm, ⟨3, _⟩ => ⟨S4096, .f32⟩
  | .hbm, ⟨4, _⟩ => ⟨S16384x4096, .f32⟩
  | .hbm, ⟨5, _⟩ => ⟨S1x4096, .f32⟩
  | .hbm, ⟨6, _⟩ => ⟨S16384x4096, .f32⟩
  | .hbm, ⟨7, _⟩ => ⟨S16384x4096, .f32⟩
  | .hbm, ⟨8, _⟩ => ⟨S_, .i32⟩
  | .hbm, ⟨9, _⟩ => ⟨S16384, .i32⟩
  | .hbm, ⟨10, _⟩ => ⟨S16384, .i1⟩
  | .hbm, ⟨11, _⟩ => ⟨S16384x1, .i1⟩
  | .hbm, ⟨12, _⟩ => ⟨S_, .f32⟩
  | .hbm, ⟨13, _⟩ => ⟨S16384x4096, .i1⟩
  | .hbm, ⟨14, _⟩ => ⟨S16384x4096, .f32⟩
  | .hbm, ⟨15, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bcast_S_S16384x4096 : S_.BroadcastsInDim S16384x4096 (![] : Fin 0 → Fin S16384x4096.rank)
  dot_S16384x1024_S4096x1024_S16384x4096_1_1_0_0_n_n_wf : DotDims.WF S16384x1024 S4096x1024 S16384x4096 [1] [1] [0] [0] [] []

variable [Facts₀]

def dot_S16384x1024_S4096x1024_S16384x4096_1_1_0_0_n_n : DotDims S16384x1024 S4096x1024 S16384x4096 where
  lhsContracting := [1]
  rhsContracting := [1]
  lhsNonContracting := [0]
  rhsNonContracting := [0]
  lhsBatch := []
  rhsBatch := []
  wf := dot_S16384x1024_S4096x1024_S16384x4096_1_1_0_0_n_n_wf

class Facts : Prop extends Facts₀ where

variable [Facts]
-- ==== Proof.MaskedAffine.lean ====
/-
  The masked affine map, entry by entry.

  For a matrix `x` of 16384 rows and 1024 columns, a matrix `W` of 4096 rows and 1024 columns, a vector `b` of
  4096 entries and a vector `a` of 16384 mask words, the result at row `n`, column `o` is
      ∑ k, x (n, k) · W (o, k)  +  b o      where the mask word `a n` is not zero,
      0                                      where it is zero.
  One program selects between the affine row and zero on the test `a n ≠ 0`; the other multiplies the affine row by
  the mask word read as a number. For a mask word that is 0 or 1 the two agree on every extended real: `y · 0 = 0`
  and `y · 1 = y` hold with no finiteness assumption, so no entry of `x`, `W` or `b` needs to be a real here.

  Besides the specification, this module reads the two column layouts the masked product passes through:
  a vector of `a` entries as an `a × 1` column, and such a column repeated along `b` columns.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Affine

noncomputable section

namespace Cert.MaskedAffine

open Idealize.ShloMosaic Idealize.ShloMosaic.ValueIdx

/-- Entry (n, o) of the masked affine map: the affine row where the mask word is not zero, zero where it is. -/
def rows (x : FVec Ideal ⟨2, ![16384, 1024]⟩ .f32) (a : IVec ⟨1, ![16384]⟩ 32) (W : FVec Ideal ⟨2, ![4096, 1024]⟩ .f32)
    (b : FVec Ideal ⟨1, ![4096]⟩ .f32) : FVec Ideal ⟨2, ![16384, 4096]⟩ .f32 :=
  fun i => if a (ix1 (i 0)) = 0#32 then 0 else (∑ k : Fin 1024, x (ix2 (i 0) k) * W (ix2 (i 1) k)) + b (ix1 (i 1))

/-- The definition at explicit coordinates. -/
theorem rows_apply (x : FVec Ideal ⟨2, ![16384, 1024]⟩ .f32) (a : IVec ⟨1, ![16384]⟩ 32) (W : FVec Ideal ⟨2, ![4096, 1024]⟩ .f32)
    (b : FVec Ideal ⟨1, ![4096]⟩ .f32) (n : Fin 16384) (o : Fin 4096) :
    rows x a W b (ix2 n o) = if a (ix1 n) = 0#32 then 0 else (∑ k : Fin 1024, x (ix2 n k) * W (ix2 o k)) + b (ix1 o) := rfl

/-! ## The mask word, as a factor and as a test -/

/-- A mask word that is 0 or 1, read as a signed number, multiplies any extended real to zero or to itself. -/
theorem mul_mask_word (a : BitVec 32) (h : a = 0#32 ∨ a = 1#32) (y : EReal) :
    y * ((a.toInt : ℝ) : EReal) = if a = 0#32 then 0 else y := by
  rcases h with rfl | rfl
  · rw [if_pos rfl]
    have h0 : (0#32 : BitVec 32).toInt = 0 := by decide
    rw [h0, Int.cast_zero, EReal.coe_zero, mul_zero]
  · rw [if_neg (by decide)]
    have h1 : (1#32 : BitVec 32).toInt = 1 := by decide
    rw [h1, Int.cast_one, EReal.coe_one, mul_one]

/-- A select on the test "the word is not zero" takes its first branch exactly off zero. -/
theorem select_ne_zero {α : Type} (a : BitVec 32) (y z : α) :
    Scalar.select (IntOp.cmpi .ne a 0#32) y z = if a = 0#32 then z else y := by
  by_cases h : a = 0#32
  · rw [if_pos h]
    exact if_neg fun hc => (IntOp.cmpi_ne.1 hc) h
  · rw [if_neg h]
    exact if_pos (IntOp.cmpi_ne.2 h)

/-! ## Column layouts read at an entry -/

variable {α : Type}

/-- A vector of `a` entries cast to an `a × 1` column reads, at row `p`, the vector's entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a × 1` column repeated along `b` columns reads, at (p, q), the column's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.MaskedAffine

end
-- ==== Proof.MaskWords.lean ====
/-
  What the precondition says of the mask.

  The precondition is a conjunction, reduced to one bit, of "every entry of x, W and b is finite" and
  "every mask word equals 0 or equals 1". Its last conjunct is an `and`-reduction, over the 16384 rows, of the
  `or` of two equality tests of the mask word, against 0 and against 1. When the whole conjunction is 1, that
  reduction is 1, so the `or` is 1 at every row, so one of the two equality tests holds there.
-/
import proofs.«421584_j15049565405213_3_alg».proof.Pre_finite_inputs
import Idealize.ShloMosaic.Lib.ReduceAll
import Idealize.ShloMosaic.Lib.Affine
import Idealize.ShloMosaic.Lib.ValueIdx

noncomputable section

namespace Cert.MaskWords

open Idealize.ShloMosaic Idealize.ShloMosaic.ValueIdx Cert.Pre_finite_inputs

variable {F : FTy → Type} [FloatOps F] [Cert.Pre_finite_inputs.Facts]

instance : Subsingleton S_.Idx := ⟨fun _ _ => funext fun d => d.elim0⟩

/-- Under the precondition every mask word is 0 or 1. -/
theorem zero_or_one (x0 : FVec F S16384x1024 .f32) (x1 : IVec S16384 32) (x2 : FVec F S4096x1024 .f32) (x3 : FVec F S4096 .f32)
    (h : Cert.Pre_finite_inputs.fn (F := F) x0 x1 x2 x3 = fun _ => 1#1) (p : Fin 16384) :
    x1 (ix1 p) = 0#32 ∨ x1 (ix1 p) = 1#32 := by
  have h0 := congrFun h ix0
  dsimp only [Cert.Pre_finite_inputs.fn, Cert.Pre_finite_inputs.fn_part1] at h0
  obtain ⟨-, hall⟩ := IntOp.andi_eq_one.1 h0
  have hp := Host.reduce_andi_all _ _ _ _ _ hall (ix1 p)
  rcases IntOp.ori_eq_one.1 hp with e | e
  · exact Or.inl (IntOp.cmpi_eq.1 e)
  · exact Or.inr (IntOp.cmpi_eq.1 e)

end Cert.MaskWords

end
-- ==== Proof.RefRows.lean ====
/-
  The reference computes the masked affine map.

  Its result is a select, entry by entry, between the affine row `x · Wᵀ + b` and the constant zero, on the mask
  word's test `≠ 0` carried from the row vector through an `n × 1` column to the full `n × o` rectangle. Read at
  entry (n, o): the test is the one of mask word `n`, the product is the sum over `k` of `x (n, k) · W (o, k)`,
  and the bias, laid along the rows, is `b o`.
-/
import proofs.«421584_j15049565405213_3_alg».proof.Proof.Gen.ReferenceIdeal.Read
import proofs.«421584_j15049565405213_3_alg».proof.Proof.MaskedAffine

noncomputable section

namespace Cert.RefRows

open Cert.ReferenceIdeal Cert.ReferenceIdeal.Read Idealize.ShloMosaic Idealize.ShloMosaic.ValueIdx

variable [Cert.ReferenceIdeal.Facts]

/-- The reference's last stage, as a function of the four arguments, is the masked affine map. -/
theorem stage_eq_rows (x0 : FVec Ideal S16384x1024 .f32) (x1 : IVec S16384 32) (x2 : FVec Ideal S4096x1024 .f32)
    (x3 : FVec Ideal S4096 .f32) : val_main_v7 (F := Ideal) x0 x1 x2 x3 = Cert.MaskedAffine.rows x0 x1 x2 x3 := by
  funext i
  obtain ⟨n, o, rfl⟩ : ∃ (n : Fin 16384) (o : Fin 4096), i = ix2 n o := ⟨i 0, i 1, eq_ix2 i⟩
  have erow : idx_main_v6 (idx_main_call0_v0 (ix2 n o)) = ix1 n := funext fun a => Fin.ext (by match a with | ⟨0, _⟩ => rfl)
  have ecol : idx_main_v1 (idx_main_v2 (ix2 n o)) = ix1 o := funext fun a => Fin.ext (by match a with | ⟨0, _⟩ => rfl)
  have el : ∀ k : Fin 1024, lidx_main_v0 (ix2 n o) k = ix2 n k := fun k => funext fun a => Fin.ext (by
    match a with | ⟨0, _⟩ => rfl | ⟨1, _⟩ => rfl)
  have er : ∀ k : Fin 1024, ridx_main_v0 (ix2 n o) k = ix2 o k := fun k => funext fun a => Fin.ext (by
    match a with | ⟨0, _⟩ => rfl | ⟨1, _⟩ => rfl)
  rw [val_main_v7_apply, val_main_call0_v0_apply, val_main_v6_apply, val_main_v5_apply, val_main_v4_apply, val_main_c_apply,
    val_main_v3_apply, val_main_v0_apply, val_main_v2_apply, val_main_v1_apply, val_main_call0_v1_apply, val_main_cst_apply,
    Cert.MaskedAffine.rows_apply, Cert.MaskedAffine.select_ne_zero, erow, ecol]
  simp only [el, er]
  show (if x1 (ix1 n) = 0#32 then Ideal.ofBits .f32 0x00000000#32 else _ + _) = _
  rw [Ideal.ofBits_zero_f32]

end Cert.RefRows

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.KernelRows.lean ====
/-
  The kernel computes the masked affine map.

  The grid has 32 points; point `t` owns rows `512·t … 512·t + 511` of the result. Its body multiplies the point's
  512 rows of `x` with the whole transposed weight matrix (a product into a zero accumulator: the plain sum over the
  1024 shared columns), adds the bias row, and multiplies by the point's 512 mask entries laid out as a column. The
  transposed weights, the bias as a `1 × 4096` row and the mask as a `16384 × 1` column of numbers are written by the
  host before the launch: entry (k, q) of the first is `W (q, k)`, entry (0, q) of the second is `b q`, entry (r, 0)
  of the third is mask word `r` read as a signed number. So entry (p, q) of point `t`'s block is
      (∑ k, x (512·t + p, k) · W (q, k) + b q) · (mask word of row 512·t + p),
  which for a mask word that is 0 or 1 is the masked affine map at (512·t + p, q). The 32 blocks tile the rows, so
  the whole result array is that map.
-/
import proofs.«421584_j15049565405213_3_alg».proof.Proof.Gen.KernelIdeal.Value
import proofs.«421584_j15049565405213_3_alg».proof.Proof.MaskedAffine
import proofs.«421584_j15049565405213_3_alg».proof.Proof.LibPlainDot
import Idealize.ShloMosaic.Lib.StableHlo.Run
import Idealize.ShloMosaic.Lib.ValueLayout
import Idealize.ShloMosaic.PureOps.Ideal.Laws

noncomputable section

namespace Cert.KernelRows

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at an entry -/

/-- Entry (p, q) of the body's stored value: the row-by-column sum plus the bias entry, times the mask entry. -/
theorem payload_apply (v0 : Vec Ideal S512x1024 .f32) (v2 : Vec Ideal S1024x4096 .bf16) (v5 : Vec Ideal S1x4096 .f32)
    (v9 : Vec Ideal S512x1 .f32) (p : Fin 512) (q : Fin 4096) :
    k0_pay1 v0 v2 v5 v9 (ix2 p q)
      = ((∑ k : Fin 1024, v0 (ix2 p k) * v2 (ix2 k q)) + v5 (ix2 (0 : Fin 1) q)) * v9 (ix2 p (0 : Fin 1)) := by
  show ((FloatOps.matmul (F := Ideal) dot_S512x1024_S1024x4096_S512x4096_1_0_0_1_n_n none
          (truncf (F := Ideal) .bf16 v0 bitsLt_bf16_f32) (shapeCast S1024x4096 v2 shapeCasts_S1024x4096_S1024x4096)
          (constant (F := Ideal) S512x4096 .f32 0x00000000#32) (ix2 p q) : EReal)
        + (broadcastTo S512x4096 (shapeCast S1x4096 v5 shapeCasts_S1x4096_S1x4096) broadcasts_S1x4096_S512x4096 (ix2 p q) : EReal))
      * (broadcastTo S512x4096 (shapeCast S512x1 v9 shapeCasts_S512x1_S512x1) broadcasts_S512x1_S512x4096 (ix2 p q) : EReal) = _
  rw [Cert.LibPlainDot.matmul_zero_apply _ rfl rfl rfl rfl rfl rfl, broadcastTo_1b_ab_apply,
    Cert.MaskedAffine.broadcastTo_a1_ab_apply, shapeCast_self, shapeCast_self, shapeCast_self]
  rfl

/-- The body's stored value at entry `j` of a block is the masked affine map at entry `i` of the array, when the
    block's row of `x`, the weights' column, the bias entry and the mask entry are those of `i`, and the mask word
    of `i`'s row is 0 or 1. -/
theorem block_entry (X : FVec Ideal S16384x1024 .f32) (A : IVec S16384 32) (Wm : FVec Ideal S4096x1024 .f32)
    (B : FVec Ideal S4096 .f32) (v0 : Vec Ideal S512x1024 .f32) (v2 : Vec Ideal S1024x4096 .bf16)
    (v5 : Vec Ideal S1x4096 .f32) (v9 : Vec Ideal S512x1 .f32) (j : S512x4096.Idx) (i : S16384x4096.Idx)
    (h0 : ∀ k : Fin 1024, v0 (ix2 (j 0) k) = X (ix2 (i 0) k))
    (h2 : ∀ k : Fin 1024, v2 (ix2 k (j 1)) = Wm (ix2 (i 1) k))
    (h5 : v5 (ix2 (0 : Fin 1) (j 1)) = B (ix1 (i 1)))
    (h9 : v9 (ix2 (j 0) (0 : Fin 1)) = (((A (ix1 (i 0))).toInt : ℝ) : EReal))
    (hA : A (ix1 (i 0)) = 0#32 ∨ A (ix1 (i 0)) = 1#32) :
    k0_pay1 v0 v2 v5 v9 j = Cert.MaskedAffine.rows X A Wm B i := by
  obtain ⟨p, q, rfl⟩ : ∃ (p : Fin 512) (q : Fin 4096), j = ix2 p q := ⟨j 0, j 1, eq_ix2 j⟩
  have h0' : ∀ k : Fin 1024, v0 (ix2 p k) = X (ix2 (i 0) k) := h0
  have h2' : ∀ k : Fin 1024, v2 (ix2 k q) = Wm (ix2 (i 1) k) := h2
  have h5' : v5 (ix2 (0 : Fin 1) q) = B (ix1 (i 1)) := h5
  have h9' : v9 (ix2 p (0 : Fin 1)) = (((A (ix1 (i 0))).toInt : ℝ) : EReal) := h9
  rw [payload_apply]
  unfold Cert.MaskedAffine.rows
  simp only [h0', h2']
  rw [h5', h9', Cert.MaskedAffine.mul_mask_word _ hA]

variable (m : (ℓ : Loc nD τ sig) → Buf (Elt Ideal) ℓ) (ρ : Dev nD → PrngReg)

/-! ## The arrays the host writes before the launch -/

/-- The transposed weights: entry (k, q) is `W (q, k)`. -/
theorem weights_apply (c : Dev nD) (k : Fin 1024) (q : Fin 4096) :
    (V m c main_v1 : S1024x4096.Idx → EReal) (ix2 k q) = m ((c : Thread nD τ).loc main_arg2) (ix2 q k) := by
  have e : (V m c main_v1 : S1024x4096.Idx → EReal) = truncf (F := Ideal) .bf16 (transpose S1024x4096 [1, 0]
      (m ((c : Thread nD τ).loc main_arg2)) transposes_S4096x1024_S1024x4096_1_0) bitsLt_bf16_f32 := by
    dsimp only [V, hostOps0]
    after_results <;> rfl
  rw [e]
  exact transpose_ix2_apply _ _ k q

/-- The bias as a row: entry (0, q) is `b q`. -/
theorem bias_apply (c : Dev nD) (u : Fin 1) (q : Fin 4096) :
    (V m c main_v2 : S1x4096.Idx → EReal) (ix2 u q) = m ((c : Thread nD τ).loc main_arg3) (ix1 q) := by
  have e : (V m c main_v2 : S1x4096.Idx → EReal) = shapeCast S1x4096 (m ((c : Thread nD τ).loc main_arg3))
      shapeCasts_S4096_S1x4096 := by
    dsimp only [V, hostOps0]
    after_results <;> rfl
  rw [e]
  exact shapeCast_a_1a_apply _ _ u q

/-- The mask as a column of numbers: entry (r, 0) is mask word `r` read as a signed number. -/
theorem mask_apply (c : Dev nD) (r : Fin 16384) (u : Fin 1) :
    (V m c main_v4 : S16384x1.Idx → EReal) (ix2 r u)
      = (((m ((c : Thread nD τ).loc main_arg1) (ix1 r)).toInt : ℝ) : EReal) := by
  have e : (V m c main_v4 : S16384x1.Idx → EReal) = shapeCast S16384x1
      (sitofp (F := Ideal) .f32 (m ((c : Thread nD τ).loc main_arg1))) shapeCasts_S16384_S16384x1 := by
    dsimp only [V, hostOps0]
    after_results <;> rfl
  rw [e]
  exact Cert.MaskedAffine.shapeCast_a_a1_apply _ _ r u

/-! ## Where each window's block sits -/

/-- The printed index maps over the 32 grid points: the windows of `x`, of the mask column and of the result move
    with the point along the rows; the weights and the bias stay at block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- WHAT POINT `t` WRITES BACK is block `t` of the masked affine map of the arguments, when every mask word is 0 or 1. -/
theorem flushed_rows (c : Dev nD) (t : Fin cfg0.N)
    (h01 : ∀ r : Fin 16384, m ((c : Thread nD τ).loc main_arg1) (ix1 r) = 0#32 ∨ m ((c : Thread nD τ).loc main_arg1) (ix1 r) = 1#32) :
    (dats m 0 c).flushed 4 t = ((cfg0.win 4).blk t).view.read (Elt Ideal)
      (Cert.MaskedAffine.rows (m ((c : Thread nD τ).loc main_arg0)) (m ((c : Thread nD τ).loc main_arg1))
        (m ((c : Thread nD τ).loc main_arg2)) (m ((c : Thread nD τ).loc main_arg3))) := by
  rw [Value.flushed4]
  unfold out0_4
  have hz : (![0, 0] : Fin 2 → Nat) = fun _ => 0 := funext fun a => by fin_cases a <;> rfl
  rw [View.canon_unit_zero hz]
  simp only [View.ld_unit_zero (S := S512x1024) hz, View.ld_unit_zero (S := S1024x4096) hz,
    View.ld_unit_zero (S := S1x4096) hz, View.ld_unit_zero (S := S512x1) hz]
  obtain ⟨e00, e01, e10, e11, e20, e21, e30, e31, e40, e41⟩ := index_facts t
  refine funext fun (j : S512x4096.Idx) => ?_
  show k0_pay1 (iblk m c 0 t) (iblk m c 1 t) (iblk m c 2 t) (iblk m c 3 t) j
    = Cert.MaskedAffine.rows (m ((c : Thread nD τ).loc main_arg0)) (m ((c : Thread nD τ).loc main_arg1))
        (m ((c : Thread nD τ).loc main_arg2)) (m ((c : Thread nD τ).loc main_arg3)) (((cfg0.win 4).blk t).view.emb j)
  have hi0 : ((((cfg0.win 4).blk t).view.emb j) 0).val = t.val * 512 + (j 0).val := by
    show win0_4.index t (0 : Fin 2) * 512 + 1 * (j 0).val = _
    omega
  have hi1 : (((cfg0.win 4).blk t).view.emb j) 1 = j 1 := Fin.ext (by
    show win0_4.index t (1 : Fin 2) * 4096 + 1 * (j 1).val = _
    omega)
  refine block_entry (m ((c : Thread nD τ).loc main_arg0)) (m ((c : Thread nD τ).loc main_arg1))
    (m ((c : Thread nD τ).loc main_arg2)) (m ((c : Thread nD τ).loc main_arg3))
    (iblk m c 0 t) (iblk m c 1 t) (iblk m c 2 t) (iblk m c 3 t) j (((cfg0.win 4).blk t).view.emb j) ?_ ?_ ?_ ?_ (h01 _)
  · intro k
    show V m c main_arg0 (((cfg0.win 0).blk t).view.emb (ix2 (j 0) k)) = _
    rw [V_main_arg0]
    refine congrArg _ (funext fun a => Fin.ext ?_)
    match a with
    | ⟨0, _⟩ => show win0_0.index t (0 : Fin 2) * 512 + 1 * (j 0).val = _; rw [hi0]; omega
    | ⟨1, _⟩ => show win0_0.index t (1 : Fin 2) * 1024 + 1 * k.val = k.val; omega
  · intro k
    show (V m c main_v1 : S1024x4096.Idx → EReal) (((cfg0.win 1).blk t).view.emb (ix2 k (j 1))) = _
    have e1 : ((cfg0.win 1).blk t).view.emb (ix2 k (j 1)) = ix2 k (j 1) := funext fun a => Fin.ext (by
      match a with
      | ⟨0, _⟩ => show win0_1.index t (0 : Fin 2) * 1024 + 1 * k.val = k.val; omega
      | ⟨1, _⟩ => show win0_1.index t (1 : Fin 2) * 4096 + 1 * (j 1).val = (j 1).val; omega)
    rw [e1, hi1]
    exact weights_apply m c k (j 1)
  · show (V m c main_v2 : S1x4096.Idx → EReal) (((cfg0.win 2).blk t).view.emb (ix2 (0 : Fin 1) (j 1))) = _
    have e2 : ((cfg0.win 2).blk t).view.emb (ix2 (0 : Fin 1) (j 1)) = ix2 (0 : Fin 1) (j 1) := funext fun a => Fin.ext (by
      match a with
      | ⟨0, _⟩ => show win0_2.index t (0 : Fin 2) * 1 + 1 * 0 = 0; omega
      | ⟨1, _⟩ => show win0_2.index t (1 : Fin 2) * 4096 + 1 * (j 1).val = (j 1).val; omega)
    rw [e2, hi1]
    exact bias_apply m c 0 (j 1)
  · show (V m c main_v4 : S16384x1.Idx → EReal) (((cfg0.win 3).blk t).view.emb (ix2 (j 0) (0 : Fin 1))) = _
    have e3 : ((cfg0.win 3).blk t).view.emb (ix2 (j 0) (0 : Fin 1)) = ix2 ((((cfg0.win 4).blk t).view.emb j) 0) (0 : Fin 1) :=
      funext fun a => Fin.ext (by
        match a with
        | ⟨0, _⟩ => show win0_3.index t (0 : Fin 2) * 512 + 1 * (j 0).val = _; rw [hi0]; omega
        | ⟨1, _⟩ => show win0_3.index t (1 : Fin 2) * 1 + 1 * 0 = 0; omega)
    rw [e3]
    exact mask_apply m c _ 0

/-! ## The blocks tile the result -/

/-- An index of the result is in point `t`'s block iff each coordinate is in the block's range on its axis. -/
theorem mem_block (t : Fin cfg0.N) (i : S16384x4096.Idx) :
    i ∈ ((cfg0.win 4).blk t).view.set ↔ ∀ a : Fin 2, win0_4.index t a * S512x4096.size a ≤ (i a).val
      ∧ (i a).val < win0_4.index t a * S512x4096.size a + S512x4096.size a := by
  show i ∈ ((View.whole main_v5).slice (win0_4.rect t)).set ↔ _
  rw [View.set_slice_whole, Rect.mem_set_unit]
  exact Iff.rfl

/-- Every entry of the result lies in the block of the point that owns its row: row `r` belongs to point `r / 512`. -/
theorem covered (i : S16384x4096.Idx) :
    ∃ t : Fin cfg0.N, (cfg0.win 4).flush t = true ∧ i ∈ ((cfg0.win 4).blk t).view.set := by
  have hi0 : (i 0).val < 16384 := (i 0).isLt
  have hi1 : (i 1).val < 4096 := (i 1).isLt
  have hlt : (i 0).val / 512 < cfg0.N := by show _ < grid0.N; rw [N_0]; omega
  obtain ⟨-, -, -, -, -, -, -, -, e40, e41⟩ := index_facts ⟨(i 0).val / 512, hlt⟩
  have e40' : win0_4.index ⟨(i 0).val / 512, hlt⟩ (0 : Fin 2) = (i 0).val / 512 := e40
  refine ⟨⟨(i 0).val / 512, hlt⟩, flush0_4 _, ?_⟩
  rw [mem_block]
  intro a
  match a with
  | ⟨0, _⟩ =>
    show win0_4.index ⟨(i 0).val / 512, hlt⟩ (0 : Fin 2) * 512 ≤ (i 0).val
      ∧ (i 0).val < win0_4.index ⟨(i 0).val / 512, hlt⟩ (0 : Fin 2) * 512 + 512
    omega
  | ⟨1, _⟩ =>
    show win0_4.index ⟨(i 0).val / 512, hlt⟩ (1 : Fin 2) * 4096 ≤ (i 1).val
      ∧ (i 1).val < win0_4.index ⟨(i 0).val / 512, hlt⟩ (1 : Fin 2) * 4096 + 4096
    omega

/-- THE RESULT ARRAY after the run is the masked affine map of the arguments. -/
theorem final_rows (c : Dev nD)
    (h01 : ∀ r : Fin 16384, m ((c : Thread nD τ).loc main_arg1) (ix1 r) = 0#32 ∨ m ((c : Thread nD τ).loc main_arg1) (ix1 r) = 1#32) :
    (dats m 0 c).arrAt 4 cfg0.N = Cert.MaskedAffine.rows (m ((c : Thread nD τ).loc main_arg0))
      (m ((c : Thread nD τ).loc main_arg1)) (m ((c : Thread nD τ).loc main_arg2)) (m ((c : Thread nD τ).loc main_arg3)) :=
  (dats m 0 c).arrAt_eq_of_cover 4 _ (fun t _ => flushed_rows m c t h01) covered

/-- The kernel's run, with the result named: every weakly fair execution ends with the result array holding the
    masked affine map of the arguments, and the arguments as they were. -/
theorem run
    (h01 : ∀ (c : Dev nD) (r : Fin 16384), m ((c : Thread nD τ).loc main_arg1) (ix1 r) = 0#32 ∨ m ((c : Thread nD τ).loc main_arg1) (ix1 r) = 1#32) :
    θ_run defs (onTc (τ := τ) (main (F := Ideal))) ⟨m, fun _ => 0, ρ⟩ fun r => ∀ c : Dev nD,
      r.2.mem ((c : Thread nD τ).loc main_v5) = Cert.MaskedAffine.rows (m ((c : Thread nD τ).loc main_arg0))
        (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_rows m c (h01 c)), (h c).2⟩) (Value.run_blocks m ρ)

end Cert.KernelRows

end
-- ==== Proof.lean ====
/-
  A masked linear layer against its dense formulation, over the extended reals.

  Both programs take a 16384 × 1024 matrix `x`, 16384 mask words, a 4096 × 1024 weight matrix `W` and a bias of
  4096 entries. One computes `x · Wᵀ + b` and keeps a row where its mask word is not zero, writing zero elsewhere;
  the other computes the same affine rows block by block (32 blocks of 512 rows, the weights transposed beforehand)
  and multiplies each row by its mask word read as a number. With every mask word 0 or 1 — which the precondition
  states, beside the finiteness of the float inputs — the factor is 0 or 1, and `y · 0 = 0`, `y · 1 = y` on every
  extended real, so the two results are the same function of the arguments, entry by entry:
      (n, o) ↦ if mask n = 0 then 0 else ∑ k, x (n, k) · W (o, k) + b o.
  Changes of float format are the identity on the extended reals, and the product into a zero accumulator, like the
  host's contraction, is the plain sum over the 1024 shared columns.

  The modules: `MaskedAffine` (the function above, the two scalar facts about a 0/1 mask word, two column layouts),
  `MaskWords` (the precondition gives 0 or 1 at every row), `RefRows` (the dense formulation is that function),
  `KernelRows` (each block of the blocked program is that function's block, and the blocks tile the result),
  `LibPlainDot` (a plain matrix product read at an entry). The five claims are assembled below.
-/
import proofs.«421584_j15049565405213_3_alg».proof.Defs
import proofs.«421584_j15049565405213_3_alg».proof.Proof.Gen.Kernel
import proofs.«421584_j15049565405213_3_alg».proof.Proof.Gen.Kernel.Skeleton
import proofs.«421584_j15049565405213_3_alg».proof.Proof.Gen.Kernel.Launch
import proofs.«421584_j15049565405213_3_alg».proof.Proof.Gen.Kernel.Points
import proofs.«421584_j15049565405213_3_alg».proof.Proof.Gen.Kernel.Frame
import proofs.«421584_j15049565405213_3_alg».proof.Proof.Gen.KernelIdeal
import proofs.«421584_j15049565405213_3_alg».proof.Proof.Gen.KernelIdeal.Skeleton
import proofs.«421584_j15049565405213_3_alg».proof.Proof.Gen.KernelIdeal.Launch
import proofs.«421584_j15049565405213_3_alg».proof.Proof.Gen.KernelIdeal.Points
import proofs.«421584_j15049565405213_3_alg».proof.Proof.Gen.KernelIdeal.Frame
import proofs.«421584_j15049565405213_3_alg».proof.Proof.Gen.ReferenceIdeal
import proofs.«421584_j15049565405213_3_alg».proof.Proof.Gen.Pre_finite_inputs
import proofs.«421584_j15049565405213_3_alg».proof.Proof.Gen.KernelIdeal.Value
import proofs.«421584_j15049565405213_3_alg».proof.Proof.Gen.ReferenceIdeal.Run
import proofs.«421584_j15049565405213_3_alg».proof.Proof.Gen.ReferenceIdeal.Read
import proofs.«421584_j15049565405213_3_alg».proof.Proof.MaskedAffine
import proofs.«421584_j15049565405213_3_alg».proof.Proof.MaskWords
import proofs.«421584_j15049565405213_3_alg».proof.Proof.RefRows
import proofs.«421584_j15049565405213_3_alg».proof.Proof.KernelRows
import Idealize.ShloMosaic.Adequacy
import Idealize.ShloMosaic.Init

noncomputable section

namespace Cert.Proof

open Idealize.ShloMosaic Idealize.SL.Sem

/-- The blocked program at the word level terminates without a fault and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The dense formulation is a straight line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals: nothing to preserve. -/
theorem preserves : Cert.preserves_Kernel_KernelIdeal := trivial

/-- From memories agreeing on the four arguments, both programs end with the masked affine map of those arguments:
    the blocked program because each of its 32 blocks is that map's block and every mask word is 0 or 1, the dense
    formulation because its select on `mask ≠ 0` is that map's case split. -/
theorem algebraic : Cert.algebraic_KernelIdeal_ReferenceIdeal := by
  intro m ρ m' ρ' hpre hagree
  have h01 : ∀ (c : Dev Cert.KernelIdeal.nD) (r : Fin 16384),
      m ((c.tc : Thread Cert.KernelIdeal.nD Cert.KernelIdeal.τ).loc Cert.KernelIdeal.main_arg1) (ValueIdx.ix1 r) = 0#32
      ∨ m ((c.tc : Thread Cert.KernelIdeal.nD Cert.KernelIdeal.τ).loc Cert.KernelIdeal.main_arg1) (ValueIdx.ix1 r) = 1#32 :=
    fun c r => Cert.MaskWords.zero_or_one _ _ _ _ (hpre c) r
  refine ⟨_, Cert.KernelRows.run m ρ h01, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.RefRows.stage_eq_rows, (hagree c).1, (hagree c).2.1,
    (hagree c).2.2.1, (hagree c).2.2.2]

theorem claim : Cert.Claim := ⟨Cert.Kernel.Gen.facts, Cert.KernelIdeal.Gen.facts, Cert.ReferenceIdeal.Gen.facts,
  Cert.Pre_finite_inputs.Gen.facts, frame_kernel, frame_kernel_ideal, frame_reference_ideal, preserves, algebraic⟩

end Cert.Proof

end
